-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x64 .f32) (main_arg1 : FVec F S64x64 .f32) (main_arg2 : FVec F S100000x1 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S5000x64 : Shape := ⟨2, ![5000, 64]⟩
abbrev S5000x1 : Shape := ⟨2, ![5000, 1]⟩
abbrev S_ : Shape := ⟨0, ![]⟩
abbrev S1600000x1 : Shape := ⟨2, ![1600000, 1]⟩
abbrev S1600000x64 : Shape := ⟨2, ![1600000, 64]⟩

abbrev nBuf : Space → Nat
  | .hbm => 20
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 23
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x64, .f32⟩
  | .hbm, ⟨6, _⟩ => ⟨S100000x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, index by index on the extended reals.

  A graph convolution over 100000 nodes with 64 features: the node features are multiplied by a 64×64 weight
  matrix and each row is scaled by its node's norm (`rowsTimesWeight`); the rows are then gathered along the edges'
  sources and summed into the edges' destinations (not opened here: both programs apply the same host operations
  to the same rows); finally each aggregated row is scaled by its node's norm again (`rowScale`).
-/
import Idealize.ShloMosaic.PureOps.Ideal
import Idealize.ShloMosaic.Lib.ValueIdx

noncomputable section

namespace Cert.Gcn

open Idealize.ShloMosaic

/-- The feature arrays' shape, the weight's and the norm column's. -/
abbrev SNode : Shape := ⟨2, ![100000, 64]⟩
abbrev SWeight : Shape := ⟨2, ![64, 64]⟩
abbrev SNorm : Shape := ⟨2, ![100000, 1]⟩

/-- Entry `k` of the row of `i` in a feature array. -/
abbrev inRow (i : SNode.Idx) (k : Fin 64) : SNode.Idx := fun a => match a with
  | ⟨0, _⟩ => ⟨(i 0).val, (i 0).isLt⟩
  | ⟨1, _⟩ => ⟨k.val, k.isLt⟩
/-- Entry `k` of the column of `i` in the weight matrix. -/
abbrev inCol (i : SNode.Idx) (k : Fin 64) : SWeight.Idx := fun a => match a with
  | ⟨0, _⟩ => ⟨k.val, k.isLt⟩
  | ⟨1, _⟩ => ⟨(i 1).val, (i 1).isLt⟩
/-- The norm of the node whose row `i` lies in. -/
abbrev normOf (i : SNode.Idx) : SNorm.Idx := fun a => match a with
  | ⟨0, _⟩ => ⟨(i 0).val, (i 0).isLt⟩
  | ⟨1, _⟩ => ⟨0, Nat.one_pos⟩

/-- `(h · w) i · norm(row of i)`: the linear layer, each row scaled by its node's norm. -/
def rowsTimesWeight (h : FVec Ideal SNode .f32) (w : FVec Ideal SWeight .f32) (n : FVec Ideal SNorm .f32) : FVec Ideal SNode .f32 :=
  fun i => (∑ k : Fin 64, h (inRow i k) * w (inCol i k)) * n (normOf i)

/-- `a i · norm(row of i)`: each row scaled by its node's norm. -/
def rowScale (a : FVec Ideal SNode .f32) (n : FVec Ideal SNorm .f32) : FVec Ideal SNode .f32 :=
  fun i => a i * n (normOf i)

end Cert.Gcn

end
-- ==== Proof.Region0.lean ====
/-
  Region 0 (the linear layer with the source norm folded in), read as values at `Ideal`.

  At grid point `t` the body loads rows `5000 t … 5000 t + 4999` of the features, the whole 64×64 weight and the
  same rows of the norm column, and stores `(x · w) · norm` into the same rows of the output. Read at an index the
  matrix unit's product into a zero accumulator is the plain sum over the contracted axis, the narrowing of the operands
  to bf16 is the identity on extended reals, and the column broadcast reads the row's norm; so the block written at
  `t` is block `t` of `Cert.Gcn.rowsTimesWeight` of the arrays the region finds, and the twenty blocks tile the array.
-/
import proofs.«103391_j40767829573731_1_alg».proof.Proof.Gen.KernelIdeal.Frame
import proofs.«103391_j40767829573731_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

/-! ## The body's arithmetic at an index of the block -/

/-- Entry `k` of the row of `j` in the block of features. -/
abbrev bRow (j : S5000x64.Idx) (k : Fin 64) : S5000x64.Idx := fun a => match a with
  | ⟨0, _⟩ => ⟨(j 0).val, (j 0).isLt⟩
  | ⟨1, _⟩ => ⟨k.val, k.isLt⟩
/-- Entry `k` of the column of `j` in the weight. -/
abbrev bCol (j : S5000x64.Idx) (k : Fin 64) : S64x64.Idx := fun a => match a with
  | ⟨0, _⟩ => ⟨k.val, k.isLt⟩
  | ⟨1, _⟩ => ⟨(j 1).val, (j 1).isLt⟩
/-- The norm of the row of `j` in the block of norms. -/
abbrev bNorm (j : S5000x64.Idx) : S5000x1.Idx := fun a => match a with
  | ⟨0, _⟩ => ⟨(j 0).val, (j 0).isLt⟩
  | ⟨1, _⟩ => ⟨0, Nat.one_pos⟩

theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product of two blocks into zero, at an index: the sum over the 64 contracted entries. -/
theorem matmul_block_apply (x0 : FVec Ideal S5000x64 .bf16) (x1 : FVec Ideal S64x64 .bf16) (j : S5000x64.Idx) :
    matmul dot_S5000x64_S64x64_S5000x64_1_0_0_1_n_n none x0 x1 (constant (F := Ideal) S5000x64 .f32 0x00000000#32) j
      = ∑ k : Fin 64, x0 (bRow j k) * x1 (bCol j k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = bRow j k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx j ((ValueIdx.contrEquiv1 dot_S5000x64_S64x64_S5000x64_1_0_0_1_n_n 64 rfl rfl).symm k) = bCol j k := funext fun a => Fin.ext (by
    match a with
    | ⟨0, _⟩ => exact (rhs_dot_0 _ _).trans hk
    | ⟨1, _⟩ => exact rhs_dot_1 _ _)
  rw [el, er]

/-- The column of norms broadcast along the rows, at an index: the row's norm. -/
theorem norm_bcast_apply (x2 : FVec Ideal S5000x1 .f32) (j : S5000x64.Idx) :
    broadcastTo S5000x64 x2 broadcasts_S5000x1_S5000x64 j = x2 (bNorm j) :=
  broadcastTo_apply x2 broadcasts_S5000x1_S5000x64 j (bNorm j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- What the body stores, at an index of the block: `(x · w) · norm`. -/
theorem pay_apply (x0 : Vec Ideal S5000x64 .f32) (x1 : Vec Ideal S64x64 .f32) (x2 : Vec Ideal S5000x1 .f32) (j : S5000x64.Idx) :
    k0_pay1 (F := Ideal) x0 x1 x2 j = (∑ k : Fin 64, x0 (bRow j k) * x1 (bCol j k)) * x2 (bNorm j) := by
  unfold k0_pay1
  show matmul dot_S5000x64_S64x64_S5000x64_1_0_0_1_n_n none (truncf .bf16 x0 bitsLt_bf16_f32) (truncf .bf16 x1 bitsLt_bf16_f32) (constant (F := Ideal) S5000x64 .f32 0x00000000#32) j
      * broadcastTo S5000x64 x2 broadcasts_S5000x1_S5000x64 j = _
  rw [matmul_block_apply, norm_bcast_apply]
  rfl

/-! ## The block written at a point is a block of the whole-array function -/

/-- If the three loaded blocks are the arrays `H`, `W`, `N` read through maps `e0`, `e1`, `e2` that carry a
    block's row, column and norm entries to the row, column and norm entries of the output position `e3 j`, then
    what the body stores at `j` is `rowsTimesWeight H W N` there. -/
theorem block_value (H : FVec Ideal Cert.Gcn.SNode .f32) (W : FVec Ideal Cert.Gcn.SWeight .f32) (N : FVec Ideal Cert.Gcn.SNorm .f32)
    (x0 : Vec Ideal S5000x64 .f32) (x1 : Vec Ideal S64x64 .f32) (x2 : Vec Ideal S5000x1 .f32)
    (e0 : S5000x64.Idx → Cert.Gcn.SNode.Idx) (e1 : S64x64.Idx → Cert.Gcn.SWeight.Idx) (e2 : S5000x1.Idx → Cert.Gcn.SNorm.Idx)
    (e3 : S5000x64.Idx → Cert.Gcn.SNode.Idx)
    (hx0 : ∀ y, x0 y = H (e0 y)) (hx1 : ∀ y, x1 y = W (e1 y)) (hx2 : ∀ y, x2 y = N (e2 y))
    (h0 : ∀ j k, e0 (bRow j k) = Cert.Gcn.inRow (e3 j) k) (h1 : ∀ j k, e1 (bCol j k) = Cert.Gcn.inCol (e3 j) k)
    (h2 : ∀ j, e2 (bNorm j) = Cert.Gcn.normOf (e3 j)) (j : S5000x64.Idx) :
    k0_pay1 (F := Ideal) x0 x1 x2 j = Cert.Gcn.rowsTimesWeight H W N (e3 j) := by
  rw [pay_apply]
  unfold Cert.Gcn.rowsTimesWeight
  simp only [hx0, hx1, hx2, h0, h1, h2]

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: the feature, norm and output windows sit at block row `t`, the weight's at
    its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rowsTimesWeight` of the arrays as the region finds them. -/
theorem flushed_eq (c : Dev nD) (t : Fin cfg0.N) :
    (dat0 V c).flushed 3 t = ((cfg0.win 3).blk t).view.read (Elt Ideal)
      (Cert.Gcn.rowsTimesWeight (V c main_arg0) (V c main_arg1) (V c main_arg2)) := by
  show (cfg0.win 3).cut (grid0.coords t) ((dat0 V c).after 3 t) = _
  rw [after0_3]
  unfold out0_3
  rw [View.canon_unit_zero off_zero]
  simp only [View.ld_unit_zero (S := S5000x64) off_zero, View.ld_unit_zero (S := S64x64) off_zero, View.ld_unit_zero (S := S5000x1) off_zero]
  obtain ⟨a0, a1, b0, b1, n0, n1, o0, o1⟩ := index_facts t
  funext j
  refine block_value (V c main_arg0) (V c main_arg1) (V c main_arg2) (iblk0 V c 0 t) (iblk0 V c 1 t) (iblk0 V c 2 t)
    (fun y => ((cfg0.win 0).blk t).view.emb y) (fun y => ((cfg0.win 1).blk t).view.emb y) (fun y => ((cfg0.win 2).blk t).view.emb y)
    (fun y => ((cfg0.win 3).blk t).view.emb y) (fun _ => rfl) (fun _ => rfl) (fun _ => rfl) ?_ ?_ ?_ j
  · intro j k
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · intro j k
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · intro j
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-! ## The twenty blocks tile the array -/

/-- An index of the output array is in point `t`'s block iff each coordinate is in the block's range. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Row `r` lies in the block of point `r / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk]
  obtain ⟨-, -, -, -, -, -, o0, o1⟩ := index_facts ⟨(i 0).val / 5000, by show (i 0).val / 5000 < 20; omega⟩
  intro a
  match a with
  | ⟨0, _⟩ =>
    show win0_3.index _ (0 : Fin 2) * 5000 ≤ (i 0).val ∧ (i 0).val < win0_3.index _ (0 : Fin 2) * 5000 + 5000
    rw [o0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [o1]; omega

/-- The output array after the region: `rowsTimesWeight` of the arrays the region finds. -/
theorem array_eq (c : Dev nD) :
    (dat0 V c).arrAt 3 cfg0.N = Cert.Gcn.rowsTimesWeight (V c main_arg0) (V c main_arg1) (V c main_arg2) :=
  (dat0 V c).arrAt_eq_of_cover 3 _ (fun t _ => flushed_eq V c t) cover

end Cert.KernelIdeal.Linear

end
-- ==== Proof.Region1.lean ====
/-
  Region 1 (the destination-norm scaling), read as values at `Ideal`.

  At grid point `t` the body loads rows `5000 t … 5000 t + 4999` of the aggregated features and of the norm column and
  stores their product, the norm broadcast along the row. So the block written at `t` is block `t` of
  `Cert.Gcn.rowScale` of the arrays the region finds, and the twenty blocks tile the array.
-/
import proofs.«103391_j40767829573731_1_alg».proof.Proof.Gen.KernelIdeal.Frame
import proofs.«103391_j40767829573731_1_alg».proof.Proof.Spec
import Idealize.ShloMosaic.Lib.Pipeline.Value
import Idealize.ShloMosaic.Lib.ValueIdx

set_option maxRecDepth 16384

noncomputable section

namespace Cert.KernelIdeal.Postscale

open Cert.KernelIdeal Cert.KernelIdeal.Gen Idealize.ShloMosaic Idealize.ShloMosaic.TcCoe Idealize.SL.Sem
open Idealize.ShloMosaic.Pipeline (Dat)

/-! ## The body's arithmetic at an index of the block -/

/-- The norm of the row of `j` in the block of norms. -/
abbrev bNorm (j : S5000x64.Idx) : S5000x1.Idx := fun a => match a with
  | ⟨0, _⟩ => ⟨(j 0).val, (j 0).isLt⟩
  | ⟨1, _⟩ => ⟨0, Nat.one_pos⟩

/-- The column of norms broadcast along the rows, at an index: the row's norm. -/
theorem norm_bcast_apply (x1 : FVec Ideal S5000x1 .f32) (j : S5000x64.Idx) :
    broadcastTo S5000x64 x1 broadcasts_S5000x1_S5000x64 j = x1 (bNorm j) :=
  broadcastTo_apply x1 broadcasts_S5000x1_S5000x64 j (bNorm j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- What the body stores, at an index of the block: the entry times its row's norm (the cast to the same shape is
    the identity). -/
theorem pay_apply (x0 : Vec Ideal S5000x64 .f32) (x1 : Vec Ideal S5000x1 .f32) (j : S5000x64.Idx) :
    k1_pay1 (F := Ideal) x0 x1 j = x0 j * x1 (bNorm j) := by
  unfold k1_pay1
  show shapeCast S5000x64 x0 shapeCasts_S5000x64_S5000x64 j * broadcastTo S5000x64 x1 broadcasts_S5000x1_S5000x64 j = _
  rw [shapeCast_self, norm_bcast_apply]

/-! ## The block written at a point is a block of the whole-array function -/

/-- If the two loaded blocks are the arrays `A`, `N` read through maps `e0`, `e1`, the first agreeing with the
    output's map `e2` and the second carrying a row's norm entry to the norm entry of `e2 j`, then what the body
    stores at `j` is `rowScale A N` there. -/
theorem block_value (A : FVec Ideal Cert.Gcn.SNode .f32) (N : FVec Ideal Cert.Gcn.SNorm .f32)
    (x0 : Vec Ideal S5000x64 .f32) (x1 : Vec Ideal S5000x1 .f32)
    (e0 : S5000x64.Idx → Cert.Gcn.SNode.Idx) (e1 : S5000x1.Idx → Cert.Gcn.SNorm.Idx) (e2 : S5000x64.Idx → Cert.Gcn.SNode.Idx)
    (hx0 : ∀ y, x0 y = A (e0 y)) (hx1 : ∀ y, x1 y = N (e1 y))
    (h0 : ∀ j, e0 j = e2 j) (h1 : ∀ j, e1 (bNorm j) = Cert.Gcn.normOf (e2 j)) (j : S5000x64.Idx) :
    k1_pay1 (F := Ideal) x0 x1 j = Cert.Gcn.rowScale A N (e2 j) := by
  rw [pay_apply]
  unfold Cert.Gcn.rowScale
  simp only [hx0, hx1, h0, h1]

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: all three windows sit at block row `t`. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowScale` of the arrays as the region finds them. -/
theorem flushed_eq (c : Dev nD) (t : Fin cfg1.N) :
    (dat1 V c).flushed 2 t = ((cfg1.win 2).blk t).view.read (Elt Ideal)
      (Cert.Gcn.rowScale (V c main_v10) (V c main_arg2)) := by
  show (cfg1.win 2).cut (grid1.coords t) ((dat1 V c).after 2 t) = _
  rw [after1_2]
  unfold out1_2
  rw [View.canon_unit_zero off_zero]
  simp only [View.ld_unit_zero (S := S5000x64) off_zero, View.ld_unit_zero (S := S5000x1) off_zero]
  obtain ⟨a0, a1, n0, n1, o0, o1⟩ := index_facts t
  funext j
  refine block_value (V c main_v10) (V c main_arg2) (iblk1 V c 0 t) (iblk1 V c 1 t)
    (fun y => ((cfg1.win 0).blk t).view.emb y) (fun y => ((cfg1.win 1).blk t).view.emb y)
    (fun y => ((cfg1.win 2).blk t).view.emb y) (fun _ => rfl) (fun _ => rfl) ?_ ?_ j
  · intro j
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  · intro j
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega

/-! ## The twenty blocks tile the array -/

/-- An index of the output array is in point `t`'s block iff each coordinate is in the block's range. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v11).slice (win1_2.rect t)).set ↔ _
  rw [View.set_slice_whole, Rect.mem_set_unit]
  exact Iff.rfl

/-- Row `r` lies in the block of point `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  refine ⟨⟨(i 0).val / 5000, by show (i 0).val / 5000 < 20; omega⟩, flush1_2 _, ?_⟩
  rw [mem_blk]
  obtain ⟨-, -, -, -, o0, o1⟩ := index_facts ⟨(i 0).val / 5000, by show (i 0).val / 5000 < 20; omega⟩
  intro a
  match a with
  | ⟨0, _⟩ =>
    show win1_2.index _ (0 : Fin 2) * 5000 ≤ (i 0).val ∧ (i 0).val < win1_2.index _ (0 : Fin 2) * 5000 + 5000
    rw [o0]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [o1]; omega

/-- The output array after the region: `rowScale` of the arrays the region finds. -/
theorem array_eq (c : Dev nD) :
    (dat1 V c).arrAt 2 cfg1.N = Cert.Gcn.rowScale (V c main_v10) (V c main_arg2) :=
  (dat1 V c).arrAt_eq_of_cover 2 _ (fun t _ => flushed_eq V c t) cover

end Cert.KernelIdeal.Postscale

end
-- ==== Proof.KernelValue.lean ====
/-
  The idealized kernel's result as one function of its arguments.

  Region 0 leaves `rowsTimesWeight h w norm` in its output array; the host operations between the regions (the
  index normalisation, the gather along the edges' sources and the scatter-add into their destinations) are carried
  as ONE function `edgeSum` of those rows and the two edge lists and are never opened; region 1 leaves
  `rowScale` of that and the norms in the result. The arguments are read back to their launch contents through the
  segment boundaries.
-/
import proofs.«103391_j40767829573731_1_alg».proof.Proof.KernelRun
import proofs.«103391_j40767829573731_1_alg».proof.Proof.Region0
import proofs.«103391_j40767829573731_1_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-- The host operations between the two regions, as one function of the rows `x` and the edge lists: negative
    sources wrapped by the node count, rows gathered at the sources, summed into the destinations from zero. -/
def edgeSum (x : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-- The result array as a function of the arguments. -/
def result (c : Dev nD) : FVec Ideal S100000x64 .f32 :=
  Cert.Gcn.rowScale
    (edgeSum (Cert.Gcn.rowsTimesWeight (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)))
    (m ((c.tc : Thread nD τ).loc main_arg2))

/-- After region 0 its output array holds the scaled linear layer of the launch arguments. -/
theorem rows_after_region0 (c : Dev nD) :
    W1 m ρ c (Proc.devRef .tc main_v0)
      = Cert.Gcn.rowsTimesWeight (m ((c.tc : Thread nD τ).loc main_arg0)) (m ((c.tc : Thread nD τ).loc main_arg1)) (m ((c.tc : Thread nD τ).loc main_arg2)) :=
  (W1_arr m ρ c 3).trans (Cert.KernelIdeal.Linear.array_eq (V0 m ρ) c)

/-- Region 0 leaves the edge lists as launched. -/
theorem src_after_region0 (c : Dev nD) : W1 m ρ c (Proc.devRef .tc main_arg3) = m ((c.tc : Thread nD τ).loc main_arg3) :=
  W1_of_ne m ρ c main_arg3 (by decide)
theorem dst_after_region0 (c : Dev nD) : W1 m ρ c (Proc.devRef .tc main_arg4) = m ((c.tc : Thread nD τ).loc main_arg4) :=
  W1_of_ne m ρ c main_arg4 (by decide)

/-- The norms at region 1's entry are the launch's. -/
theorem norm_at_region1 (c : Dev nD) : W2 m ρ c (Proc.devRef .tc main_arg2) = m ((c.tc : Thread nD τ).loc main_arg2) :=
  (((W3_arr m ρ c 1).trans (((dat1 (V2 m ρ) c).arrAt_in 1 rfl _).trans (A_eq1 (V2 m ρ) c 1))).symm).trans (W3_main_arg2 m ρ c)

/-- At region 1's entry the aggregated rows are `edgeSum` of what region 0 left. -/
theorem agg_at_region1 (c : Dev nD) :
    W2 m ρ c (Proc.devRef .tc main_v10)
      = edgeSum (W1 m ρ c (Proc.devRef .tc main_v0)) (W1 m ρ c (Proc.devRef .tc main_arg3)) (W1 m ρ c (Proc.devRef .tc main_arg4)) := by
  unfold edgeSum
  show StableHlo.after hostOps1 (W1 m ρ c) (Proc.devRef .tc main_v10) = _
  after_results

/-- The result buffer at the last segment boundary is `result`. -/
theorem result_eq (c : Dev nD) : W3 m ρ c (Proc.devRef .tc main_v11) = result m c := by
  refine (W3_arr m ρ c 2).trans ((Cert.KernelIdeal.Postscale.array_eq (V2 m ρ) c).trans ?_)
  show Cert.Gcn.rowScale (W2 m ρ c (Proc.devRef .tc main_v10)) (W2 m ρ c (Proc.devRef .tc main_arg2)) = _
  rw [agg_at_region1, norm_at_region1, rows_after_region0, src_after_region0, dst_after_region0]
  rfl

/-- The run of the idealized kernel with its result named as a function of the arguments. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_main m ρ)

end Cert.KernelIdeal.Whole

end
-- ==== Proof.RefValue.lean ====
/-
  The idealized reference's result as the same function of its arguments.

  The reference multiplies the features by the weight on the host (at `Ideal` the sum over the contracted axis),
  scales each row by its norm, applies the same host operations along the edges, and scales by the norm again. Its
  run's term is read one operation at a time; the operations along the edges are carried as ONE function `edgeSum`
  of the rows and the edge lists.
-/
import proofs.«103391_j40767829573731_1_alg».proof.Defs
import proofs.«103391_j40767829573731_1_alg».proof.Proof.Gen.ReferenceIdeal.Run
import proofs.«103391_j40767829573731_1_alg».proof.Proof.Gen.ReferenceIdeal.Read
import proofs.«103391_j40767829573731_1_alg».proof.Proof.Spec

noncomputable section

namespace Cert.ReferenceIdeal.Whole

open Cert.ReferenceIdeal Cert.ReferenceIdeal.Gen Cert.ReferenceIdeal.Read Idealize.ShloMosaic Idealize.ShloMosaic.TcCoe Idealize.SL.Sem

/-- The host operations along the edges, as one function of the rows `x` and the edge lists: negative sources
    wrapped by the node count, rows gathered at the sources, summed into the destinations from zero. -/
def edgeSum (x : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The host's matrix product scaled by the broadcast norms is `rowsTimesWeight`, index by index. -/
theorem rows_eq (h : FVec Ideal S100000x64 .f32) (w : FVec Ideal S64x64 .f32) (n : FVec Ideal S100000x1 .f32) :
    val_main_v2 (F := Ideal) h w n = Cert.Gcn.rowsTimesWeight h w n := by
  funext i
  rw [val_main_v2_apply, val_main_v0_apply, val_main_v1_apply]
  rfl

/-- The final product with the broadcast norms is `rowScale`, index by index. -/
theorem scale_eq (a : FVec Ideal S100000x64 .f32) (n : FVec Ideal S100000x1 .f32) :
    mulf a (val_main_v13 (F := Ideal) n) = Cert.Gcn.rowScale a n := by
  funext i
  show a i * val_main_v13 (F := Ideal) n i = _
  rw [val_main_v13_apply]
  rfl

/-- The run's term for the result is `rowScale (edgeSum (rowsTimesWeight h w n) src dst) n`. -/
theorem result_eq (h : FVec Ideal S100000x64 .f32) (w : FVec Ideal S64x64 .f32) (n : FVec Ideal S100000x1 .f32) (src dst : IVec S1600000 32) :
    val_main_v14 (F := Ideal) h w n src dst
      = Cert.Gcn.rowScale (edgeSum (Cert.Gcn.rowsTimesWeight h w n) src dst) n := by
  have e : val_main_v12 (F := Ideal) h w n src dst = edgeSum (val_main_v2 (F := Ideal) h w n) src dst := by
    unfold val_main_v12 val_main_v11 val_main_v10 val_main_v9 val_main_v8 val_main_v7 val_main_v6 val_main_v5 val_main_v4 val_main_v3
      val_main_cst val_main_c_0 val_main_c edgeSum
    rfl
  unfold val_main_v14
  rw [e, rows_eq, scale_eq]

end Cert.ReferenceIdeal.Whole

end
-- ==== Proof.lean ====
/-
  A graph-convolution layer over 100000 nodes, 64 features and 1600000 edges: the kernel program against its
  plain reference, equal over the extended reals.

  Both compute `out = norm ⊙ A(norm ⊙ (h · w))`, where `h · w` is the 64-feature linear layer, `norm ⊙` scales each
  node's row by that node's norm, and `A` gathers rows at the edges' sources and sums them into the edges'
  destinations. The kernel program does the linear layer and the first scaling in one pipelined region (rows in
  twenty blocks of 5000, operands narrowed to bf16 for the matrix unit: the identity on extended reals), applies `A`
  with the same host operations as the reference, and does the last scaling in a second pipelined region. The
  reference does all of it on the host, its matrix product at `Ideal` the same sum over the contracted axis.

  `Cert.Gcn.rowsTimesWeight` and `Cert.Gcn.rowScale` (Spec) state the two scaled stages index by index;
  `edgeSum` carries `A` unopened. Region0 / Region1 show each region's output array is its stage of the arrays it
  finds; KernelValue threads them through the segment boundaries; RefValue reads the reference's run to the same
  term. No law beyond reading the operations at an index is needed, so the precondition is never opened.
-/
import proofs.«103391_j40767829573731_1_alg».proof.Defs
import proofs.«103391_j40767829573731_1_alg».proof.Proof.Gen.Kernel
import proofs.«103391_j40767829573731_1_alg».proof.Proof.Gen.Kernel.Skeleton
import proofs.«103391_j40767829573731_1_alg».proof.Proof.Gen.Kernel.Launch
import proofs.«103391_j40767829573731_1_alg».proof.Proof.Gen.Kernel.Points
import proofs.«103391_j40767829573731_1_alg».proof.Proof.Gen.Kernel.Frame
import proofs.«103391_j40767829573731_1_alg».proof.Proof.Gen.KernelIdeal
import proofs.«103391_j40767829573731_1_alg».proof.Proof.Gen.KernelIdeal.Skeleton
import proofs.«103391_j40767829573731_1_alg».proof.Proof.Gen.KernelIdeal.Launch
import proofs.«103391_j40767829573731_1_alg».proof.Proof.Gen.KernelIdeal.Points
import proofs.«103391_j40767829573731_1_alg».proof.Proof.Gen.KernelIdeal.Frame
import proofs.«103391_j40767829573731_1_alg».proof.Proof.Gen.ReferenceIdeal
import proofs.«103391_j40767829573731_1_alg».proof.Proof.Gen.ReferenceIdeal.Run
import proofs.«103391_j40767829573731_1_alg».proof.Proof.Gen.ReferenceIdeal.Read
import proofs.«103391_j40767829573731_1_alg».proof.Proof.Gen.Pre_finite_inputs
import proofs.«103391_j40767829573731_1_alg».proof.Proof.KernelValue
import proofs.«103391_j40767829573731_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The operations along the edges are the same function in both programs (the same gather and scatter-add over
    the same shapes). -/
theorem edgeSum_eq (x : FVec Ideal Cert.Gcn.SNode .f32) (src dst : IVec (⟨1, ![1600000]⟩ : Shape) 32) :
    Cert.ReferenceIdeal.Whole.edgeSum x src dst = Cert.KernelIdeal.Whole.edgeSum x src dst := rfl

/-- Both programs end with `rowScale (edgeSum (rowsTimesWeight h w norm) src dst) norm` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Whole.result_eq, (hagree c).1, (hagree c).2.1,
    (hagree c).2.2.1, (hagree c).2.2.2.1, (hagree c).2.2.2.2, edgeSum_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
